-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x768x64x64 : Shape := ⟨4, ![16, 768, 64, 64]⟩
abbrev S16x1024 : Shape := ⟨2, ![16, 1024]⟩
abbrev S768x1024 : Shape := ⟨2, ![768, 1024]⟩
abbrev S768 : Shape := ⟨1, ![768]⟩
abbrev S2304x768 : Shape := ⟨2, ![2304, 768]⟩
abbrev S2304 : Shape := ⟨1, ![2304]⟩
abbrev S768x768 : Shape := ⟨2, ![768, 768]⟩
abbrev S_ : Shape := ⟨0, ![]⟩

class Facts : Prop where
  bcast_S_S16x768x64x64 : S_.BroadcastsInDim S16x768x64x64 (![] : Fin 0 → Fin S16x768x64x64.rank)
  reducesTo_S16x768x64x64_S_d0_1_2_3 : S16x768x64x64.ReducesTo [0, 1, 2, 3] S_
  h_S_ : 0 < S_.numel
  bcast_S_S16x1024 : S_.BroadcastsInDim S16x1024 (![] : Fin 0 → Fin S16x1024.rank)
  reducesTo_S16x1024_S_d0_1 : S16x1024.ReducesTo [0, 1] S_
  bcast_S_S768x1024 : S_.BroadcastsInDim S768x1024 (![] : Fin 0 → Fin S768x1024.rank)
  reducesTo_S768x1024_S_d0_1 : S768x1024.ReducesTo [0, 1] S_
  bcast_S_S768 : S_.BroadcastsInDim S768 (![] : Fin 0 → Fin S768.rank)
  reducesTo_S768_S_d0 : S768.ReducesTo [0] S_
  bcast_S_S2304x768 : S_.BroadcastsInDim S2304x768 (![] : Fin 0 → Fin S2304x768.rank)
  reducesTo_S2304x768_S_d0_1 : S2304x768.ReducesTo [0, 1] S_
  bcast_S_S2304 : S_.BroadcastsInDim S2304 (![] : Fin 0 → Fin S2304.rank)
  reducesTo_S2304_S_d0 : S2304.ReducesTo [0] S_
  bcast_S_S768x768 : S_.BroadcastsInDim S768x768 (![] : Fin 0 → Fin S768x768.rank)
  reducesTo_S768x768_S_d0_1 : S768x768.ReducesTo [0, 1] S_

variable [Facts]

def fn_part3 {F : FTy → Type} [FloatOps F] (main_arg11 : FVec F S768 .f32) (main_v48 : IVec S_ 1) (main_v49 : FVec F S768 .f32) (main_v50 : FVec F S768 .f32) : IVec S_ 1 :=
  let main_v51 : IVec S768 1 := cmpf .olt main_v49 main_v50
  let main_c_19 : IVec S_ 1 := constantI S_ 1 1#1
  let main_v52 : IVec S_ 1 := (fun x v => Host.reduce IntOp.andi x v reducesTo_S768_S_d0 h_S_) main_v51 main_c_19
  let main_v53 : IVec S_ 1 := andi main_v48 main_v52
  let main_v54 : FVec F S768 .f32 := Host.absf main_arg11
  let main_cst_20 : FVec F S_ .f32 := constant S_ .f32 0x7F800000#32
  let main_v55 : FVec F S768 .f32 := broadcastInDim S768 ![] bcast_S_S768 main_cst_20
  let main_v56 : IVec S768 1 := cmpf .olt main_v54 main_v55
  let main_c_21 : IVec S_ 1 := constantI S_ 1 1#1
  let main_v57 : IVec S_ 1 := (fun x v => Host.reduce IntOp.andi x v reducesTo_S768_S_d0 h_S_) main_v56 main_c_21
  let main_v58 : IVec S_ 1 := andi main_v53 main_v57
  main_v58

def fn_part2 {F : FTy → Type} [FloatOps F] (main_arg7 : FVec F S768 .f32) (main_arg8 : FVec F S768x768 .f32) (main_arg9 : FVec F S768 .f32) (main_arg10 : FVec F S768 .f32) (main_arg11 : FVec F S768 .f32) (main_v33 : IVec S_ 1) : IVec S_ 1 :=
  let main_v34 : FVec F S768 .f32 := Host.absf main_arg7
  let main_cst_12 : FVec F S_ .f32 := constant S_ .f32 0x7F800000#32
  let main_v35 : FVec F S768 .f32 := broadcastInDim S768 ![] bcast_S_S768 main_cst_12
  let main_v36 : IVec S768 1 := cmpf .olt main_v34 main_v35
  let main_c_13 : IVec S_ 1 := constantI S_ 1 1#1
  let main_v37 : IVec S_ 1 := (fun x v => Host.reduce IntOp.andi x v reducesTo_S768_S_d0 h_S_) main_v36 main_c_13
  let main_v38 : IVec S_ 1 := andi main_v33 main_v37
  let main_v39 : FVec F S768x768 .f32 := Host.absf main_arg8
  let main_cst_14 : FVec F S_ .f32 := constant S_ .f32 0x7F800000#32
  let main_v40 : FVec F S768x768 .f32 := broadcastInDim S768x768 ![] bcast_S_S768x768 main_cst_14
  let main_v41 : IVec S768x768 1 := cmpf .olt main_v39 main_v40
  let main_c_15 : IVec S_ 1 := constantI S_ 1 1#1
  let main_v42 : IVec S_ 1 := (fun x v => Host.reduce IntOp.andi x v reducesTo_S768x768_S_d0_1 h_S_) main_v41 main_c_15
  let main_v43 : IVec S_ 1 := andi main_v38 main_v42
  let main_v44 : FVec F S768 .f32 := Host.absf main_arg9
  let main_cst_16 : FVec F S_ .f32 := constant S_ .f32 0x7F800000#32
  let main_v45 : FVec F S768 .f32 := broadcastInDim S768 ![] bcast_S_S768 main_cst_16
  let main_v46 : IVec S768 1 := cmpf .olt main_v44 main_v45
  let main_c_17 : IVec S_ 1 := constantI S_ 1 1#1
  let main_v47 : IVec S_ 1 := (fun x v => Host.reduce IntOp.andi x v reducesTo_S768_S_d0 h_S_) main_v46 main_c_17
  let main_v48 : IVec S_ 1 := andi main_v43 main_v47
  let main_v49 : FVec F S768 .f32 := Host.absf main_arg10
  let main_cst_18 : FVec F S_ .f32 := constant S_ .f32 0x7F800000#32
  let main_v50 : FVec F S768 .f32 := broadcastInDim S768 ![] bcast_S_S768 main_cst_18
  fn_part3 (F := F) main_arg11 main_v48 main_v49 main_v50

def fn_part1 {F : FTy → Type} [FloatOps F] (main_arg4 : FVec F S2304x768 .f32) (main_arg5 : FVec F S2304 .f32) (main_arg6 : FVec F S768x768 .f32) (main_arg7 : FVec F S768 .f32) (main_arg8 : FVec F S768x768 .f32) (main_arg9 : FVec F S768 .f32) (main_arg10 : FVec F S768 .f32) (main_arg11 : FVec F S768 .f32) (main_v13 : IVec S_ 1) (main_v16 : IVec S768 1) : IVec S_ 1 :=
  let main_c_5 : IVec S_ 1 := constantI S_ 1 1#1
  let main_v17 : IVec S_ 1 := (fun x v => Host.reduce IntOp.andi x v reducesTo_S768_S_d0 h_S_) main_v16 main_c_5
  let main_v18 : IVec S_ 1 := andi main_v13 main_v17
  let main_v19 : FVec F S2304x768 .f32 := Host.absf main_arg4
  let main_cst_6 : FVec F S_ .f32 := constant S_ .f32 0x7F800000#32
  let main_v20 : FVec F S2304x768 .f32 := broadcastInDim S2304x768 ![] bcast_S_S2304x768 main_cst_6
  let main_v21 : IVec S2304x768 1 := cmpf .olt main_v19 main_v20
  let main_c_7 : IVec S_ 1 := constantI S_ 1 1#1
  let main_v22 : IVec S_ 1 := (fun x v => Host.reduce IntOp.andi x v reducesTo_S2304x768_S_d0_1 h_S_) main_v21 main_c_7
  let main_v23 : IVec S_ 1 := andi main_v18 main_v22
  let main_v24 : FVec F S2304 .f32 := Host.absf main_arg5
  let main_cst_8 : FVec F S_ .f32 := constant S_ .f32 0x7F800000#32
  let main_v25 : FVec F S2304 .f32 := broadcastInDim S2304 ![] bcast_S_S2304 main_cst_8
  let main_v26 : IVec S2304 1 := cmpf .olt main_v24 main_v25
  let main_c_9 : IVec S_ 1 := constantI S_ 1 1#1
  let main_v27 : IVec S_ 1 := (fun x v => Host.reduce IntOp.andi x v reducesTo_S2304_S_d0 h_S_) main_v26 main_c_9
  let main_v28 : IVec S_ 1 := andi main_v23 main_v27
  let main_v29 : FVec F S768x768 .f32 := Host.absf main_arg6
  let main_cst_10 : FVec F S_ .f32 := constant S_ .f32 0x7F800000#32
  let main_v30 : FVec F S768x768 .f32 := broadcastInDim S768x768 ![] bcast_S_S768x768 main_cst_10
  let main_v31 : IVec S768x768 1 := cmpf .olt main_v29 main_v30
  let main_c_11 : IVec S_ 1 := constantI S_ 1 1#1
  let main_v32 : IVec S_ 1 := (fun x v => Host.reduce IntOp.andi x v reducesTo_S768x768_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S16x768x64x64 .f32) (main_arg1 : FVec F S16x1024 .f32) (main_arg2 : FVec F S768x1024 .f32) (main_arg3 : FVec F S768 .f32) (main_arg4 : FVec F S2304x768 .f32) (main_arg5 : FVec F S2304 .f32) (main_arg6 : FVec F S768x768 .f32) (main_arg7 : FVec F S768 .f32) (main_arg8 : FVec F S768x768 .f32) (main_arg9 : FVec F S768 .f32) (main_arg10 : FVec F S768 .f32) (main_arg11 : FVec F S768 .f32) : IVec S_ 1 :=
  let main_v0 : FVec F S16x768x64x64 .f32 := Host.absf main_arg0
  let main_cst : FVec F S_ .f32 := constant S_ .f32 0x7F800000#32
  let main_v1 : FVec F S16x768x64x64 .f32 := broadcastInDim S16x768x64x64 ![] bcast_S_S16x768x64x64 main_cst
  let main_v2 : IVec S16x768x64x64 1 := cmpf .olt main_v0 main_v1
  let main_c : IVec S_ 1 := constantI S_ 1 1#1
  let main_v3 : IVec S_ 1 := (fun x v => Host.reduce IntOp.andi x v reducesTo_S16x768x64x64_S_d0_1_2_3 h_S_) main_v2 main_c
  let main_v4 : FVec F S16x1024 .f32 := Host.absf main_arg1
  let main_cst_0 : FVec F S_ .f32 := constant S_ .f32 0x7F800000#32
  let main_v5 : FVec F S16x1024 .f32 := broadcastInDim S16x1024 ![] bcast_S_S16x1024 main_cst_0
  let main_v6 : IVec S16x1024 1 := cmpf .olt main_v4 main_v5
  let main_c_1 : IVec S_ 1 := constantI S_ 1 1#1
  let main_v7 : IVec S_ 1 := (fun x v => Host.reduce IntOp.andi x v reducesTo_S16x1024_S_d0_1 h_S_) main_v6 main_c_1
  let main_v8 : IVec S_ 1 := andi main_v3 main_v7
  let main_v9 : FVec F S768x1024 .f32 := Host.absf main_arg2
  let main_cst_2 : FVec F S_ .f32 := constant S_ .f32 0x7F800000#32
  let main_v10 : FVec F S768x1024 .f32 := broadcastInDim S768x1024 ![] bcast_S_S768x1024 main_cst_2
  let main_v11 : IVec S768x1024 1 := cmpf .olt main_v9 main_v10
  let main_c_3 : IVec S_ 1 := constantI S_ 1 1#1
  let main_v12 : IVec S_ 1 := (fun x v => Host.reduce IntOp.andi x v reducesTo_S768x1024_S_d0_1 h_S_) main_v11 main_c_3
  let main_v13 : IVec S_ 1 := andi main_v8 main_v12
  let main_v14 : FVec F S768 .f32 := Host.absf main_arg3
  let main_cst_4 : FVec F S_ .f32 := constant S_ .f32 0x7F800000#32
  let main_v15 : FVec F S768 .f32 := broadcastInDim S768 ![] bcast_S_S768 main_cst_4
  let main_v16 : IVec S768 1 := cmpf .olt main_v14 main_v15
  fn_part1 (F := F) main_arg4 main_arg5 main_arg6 main_arg7 main_arg8 main_arg9 main_arg10 main_arg11 main_v13 main_v16
-- ==== Kernel.lean ====
abbrev S16x768x64x64 : Shape := ⟨4, ![16, 768, 64, 64]⟩
abbrev S16x1024 : Shape := ⟨2, ![16, 1024]⟩
abbrev S768x1024 : Shape := ⟨2, ![768, 1024]⟩
abbrev S768 : Shape := ⟨1, ![768]⟩
abbrev S2304x768 : Shape := ⟨2, ![2304, 768]⟩
abbrev S2304 : Shape := ⟨1, ![2304]⟩
abbrev S768x768 : Shape := ⟨2, ![768, 768]⟩
abbrev S1024x768 : Shape := ⟨2, ![1024, 768]⟩
abbrev S16x768 : Shape := ⟨2, ![16, 768]⟩
abbrev S1x768 : Shape := ⟨2, ![1, 768]⟩
abbrev S16x768x4096 : Shape := ⟨3, ![16, 768, 4096]⟩
abbrev S16x768x1 : Shape := ⟨3, ![16, 768, 1]⟩
abbrev S768x1 : Shape := ⟨2, ![768, 1]⟩
abbrev S1x768x1024 : Shape := ⟨3, ![1, 768, 1024]⟩
abbrev S1x768x1 : Shape := ⟨3, ![1, 768, 1]⟩
abbrev S1024 : Shape := ⟨1, ![1024]⟩
abbrev S1x1024 : Shape := ⟨2, ![1, 1024]⟩

abbrev nBuf : Space → Nat
  | .hbm => 40
  | .vmem => 8
  | .smem => 0
  | _ => 0

abbrev bufTy : (tb : Table) → Fin (tcTables nBuf tb) → BufTy
  | .hbm, ⟨0, _⟩ => ⟨S16x768x64x64, .f32⟩
  | .hbm, ⟨1, _⟩ => ⟨S16x1024, .f32⟩
  | .hbm, ⟨2, _⟩ => ⟨S768x1024, .f32⟩
  | .hbm, ⟨3, _⟩ => ⟨S768, .f32⟩
  | .hbm, ⟨4, _⟩ => ⟨S2304x768, .f32⟩
  | .hbm, ⟨5, _⟩ => ⟨S2304, .f32⟩
  | .hbm, ⟨6, _⟩ => ⟨S768x768, .f32⟩
  | .hbm, ⟨7, _⟩ => ⟨S768, .f32⟩
  | .hbm, ⟨8, _⟩ => ⟨S768x768, .f32⟩
  | .hbm, ⟨9, _⟩ => ⟨S768, .f32⟩
  | .hbm, ⟨10, _⟩ => ⟨S768, .f32⟩
  | .hbm, ⟨11, _⟩ => ⟨S768, .f32⟩
  | .hbm, ⟨12, _⟩ => ⟨S1024x768, .f32⟩
  | .hbm, ⟨13, _⟩ => ⟨S16x768, .f32⟩
  | .hbm, ⟨14, _⟩ => ⟨S1x768, .f32⟩
  | .hbm, ⟨15, _⟩ => ⟨S16x768, .f32⟩
  | .hbm, ⟨16, _⟩ => ⟨S16x768, .f32⟩
  | .hbm, ⟨17, _⟩ => ⟨S768x768, .f32⟩
  | .hbm, ⟨18, _⟩ => ⟨S768, .f32⟩
  | .hbm, ⟨19, _⟩ => ⟨S768x768, .f32⟩
  | .hbm, ⟨20, _⟩ => ⟨S16x768, .f32⟩
  | .hbm, ⟨21, _⟩ => ⟨S1x768, .f32⟩
  | .hbm, ⟨22, _⟩ => ⟨S16x768, .f32⟩
  | .hbm, ⟨23, _⟩ => ⟨S16x768, .f32⟩
  | .hbm, ⟨24, _⟩ => ⟨S768x768, .f32⟩
  | .hbm, ⟨25, _⟩ => ⟨S16x768, .f32⟩
  | .hbm, ⟨26, _⟩ => ⟨S1x768, .f32⟩
  | .hbm, ⟨27, _⟩ => ⟨S16x768, .f32⟩
  | .hbm, ⟨28, _⟩ => ⟨S16x768, .f32⟩
  | .hbm, ⟨29, _⟩ => ⟨S768x768, .f32⟩
  | .hbm, ⟨30, _⟩ => ⟨S16x768, .f32⟩
  | .hbm, ⟨31, _⟩ => ⟨S1x768, .f32⟩
  | .hbm, ⟨32, _⟩ => ⟨S16x768, .f32⟩
  | .hbm, ⟨33, _⟩ => ⟨S16x768, .f32⟩
  | .hbm, ⟨34, _⟩ => ⟨S16x768x4096, .f32⟩
  | .hbm, ⟨35, _⟩ => ⟨S16x768x1, .f32⟩
  | .hbm, ⟨36, _⟩ => ⟨S768x1, .f32⟩
  | .hbm, ⟨37, _⟩ => ⟨S768x1, .f32⟩
  | .hbm, ⟨38, _⟩ => ⟨S16x768x4096, .f32⟩
  | .hbm, ⟨39, _⟩ => ⟨S16x768x64x64, .f32⟩
  | .local _ .vmem, ⟨0, _⟩ => ⟨S1x768x1024, .f32⟩
  | .local _ .vmem, ⟨1, _⟩ => ⟨S1x768x1024, .f32⟩
  | .local _ .vmem, ⟨2, _⟩ => ⟨S1x768x1, .f32⟩
  | .local _ .vmem, ⟨3, _⟩ => ⟨S1x768x1, .f32⟩
  | .local _ .vmem, ⟨4, _⟩ => ⟨S768x1, .f32⟩
  | .local _ .vmem, ⟨5, _⟩ => ⟨S768x1, .f32⟩
  | .local _ .vmem, ⟨6, _⟩ => ⟨S1x768x1024, .f32⟩
  | .local _ .vmem, ⟨7, _⟩ => ⟨S1x768x1024, .f32⟩
  | _, _ => ⟨S16x768x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x768x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S768x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S768x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x768x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  transposes_S768x1024_S1024x768_1_0 : S768x1024.Transposes [1, 0] S1024x768
  bcast_S768_S1x768_1 : S768.BroadcastsInDim S1x768 (![1] : Fin 1 → Fin S1x768.rank)
  bcast_S1x768_S16x768_0_1 : S1x768.BroadcastsInDim S16x768 (![0, 1] : Fin 2 → Fin S16x768.rank)
  slices_S2304x768_S768x768_1536_0 : S2304x768.Slices ![1536, 0] S768x768
  slices_S2304_S768_1536 : S2304.Slices ![1536] S768
  transposes_S768x768_S768x768_1_0 : S768x768.Transposes [1, 0] S768x768
  shapeCasts_S16x768x64x64_S16x768x4096 : S16x768x64x64.ShapeCasts S16x768x4096
  shapeCasts_S16x768_S16x768x1 : S16x768.ShapeCasts S16x768x1
  shapeCasts_S768_S768x1 : S768.ShapeCasts S768x1
  inb_S1x768x1024_S1x768x1024_0_0_0 : ∀ a, (![0, 0, 0] : Fin 3 → Nat) a + S1x768x1024.size a ≤ S1x768x1024.size a
  h_S1x768x1024 : 0 < S1x768x1024.numel
  shapeCasts_S1x768x1024_S768x1024 : S1x768x1024.ShapeCasts S768x1024
  inb_S1x768x1_S1x768x1_0_0_0 : ∀ a, (![0, 0, 0] : Fin 3 → Nat) a + S1x768x1.size a ≤ S1x768x1.size a
  h_S1x768x1 : 0 < S1x768x1.numel
  shapeCasts_S1x768x1_S768x1 : S1x768x1.ShapeCasts S768x1
  broadcasts_S768x1_S768x1024 : S768x1.Broadcasts S768x1024
  reduces_S768x1024_S1024 : S768x1024.Reduces [0] S1024
  shapeCasts_S1024_S1x1024 : S1024.ShapeCasts S1x1024
  broadcasts_S1x1024_S768x1024 : S1x1024.Broadcasts S768x1024
  inb_S768x1_S768x1_0_0 : ∀ a, (![0, 0] : Fin 2 → Nat) a + S768x1.size a ≤ S768x1.size a
  h_S768x1 : 0 < S768x1.numel
  shapeCasts_S768x1_S768x1 : S768x1.ShapeCasts S768x1
  shapeCasts_S768x1024_S1x768x1024 : S768x1024.ShapeCasts S1x768x1024
  shapeCasts_S16x768x4096_S16x768x64x64 : S16x768x4096.ShapeCasts S16x768x64x64
  dot_S16x1024_S1024x768_S16x768_1_0_0_1_n_n_wf : DotDims.WF S16x1024 S1024x768 S16x768 [1] [0] [0] [1] [] []
  dot_S16x768_S768x768_S16x768_1_0_0_1_n_n_wf : DotDims.WF S16x768 S768x768 S16x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x768x1024.size a ≤ S16x768x4096.size a
  hwx0_0 : ∀ i : grid0.Coords, EltTy.bits .f32 = 32 ∨ (Rect.block (s := S16x768x4096) S1x768x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x768x1.size a ≤ S16x768x1.size a
  hwx0_1 : ∀ i : grid0.Coords, EltTy.bits .f32 = 32 ∨ (Rect.block (s := S16x768x1) S1x768x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768x1.size a ≤ S768x1.size a
  hwx0_2 : ∀ i : grid0.Coords, EltTy.bits .f32 = 32 ∨ (Rect.block (s := S768x1) S768x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768x1.size a ≤ S768x1.size a
  hwx0_3 : ∀ i : grid0.Coords, EltTy.bits .f32 = 32 ∨ (Rect.block (s := S768x1) S768x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x768x1024.size a ≤ S16x768x4096.size a
  hwx0_4 : ∀ i : grid0.Coords, EltTy.bits .f32 = 32 ∨ (Rect.block (s := S16x768x4096) S1x768x1024.size (cc0_transform_4 i) (hinb0_4 i)).WholeWords (EltTy.packing .f32)

variable [Facts₀]

def dot_S16x1024_S1024x768_S16x768_1_0_0_1_n_n : DotDims S16x1024 S1024x768 S16x768 where
  lhsContracting := [1]
  rhsContracting := [0]
  lhsNonContracting := [0]
  rhsNonContracting := [1]
  lhsBatch := []
  rhsBatch := []
  wf := dot_S16x1024_S1024x768_S16x768_1_0_0_1_n_n_wf
def dot_S16x768_S768x768_S16x768_1_0_0_1_n_n : DotDims S16x768 S768x768 S16x768 where
  lhsContracting := [1]
  rhsContracting := [0]
  lhsNonContracting := [0]
  rhsNonContracting := [1]
  lhsBatch := []
  rhsBatch := []
  wf := dot_S16x768_S768x768_S16x768_1_0_0_1_n_n_wf

abbrev win0_0 : Pipeline.Window sig grid0 :=
  Pipeline.Window.ofSpec (Memref.whole main_v22) S1x768x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v23) S1x768x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v24) S768x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S768x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S1x768x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x768x64x64 : Shape := ⟨4, ![16, 768, 64, 64]⟩
abbrev S16x1024 : Shape := ⟨2, ![16, 1024]⟩
abbrev S768x1024 : Shape := ⟨2, ![768, 1024]⟩
abbrev S768 : Shape := ⟨1, ![768]⟩
abbrev S2304x768 : Shape := ⟨2, ![2304, 768]⟩
abbrev S2304 : Shape := ⟨1, ![2304]⟩
abbrev S768x768 : Shape := ⟨2, ![768, 768]⟩
abbrev S16x768x4096 : Shape := ⟨3, ![16, 768, 4096]⟩
abbrev S16x4096x768 : Shape := ⟨3, ![16, 4096, 768]⟩
abbrev S1024x768 : Shape := ⟨2, ![1024, 768]⟩
abbrev S16x768 : Shape := ⟨2, ![16, 768]⟩
abbrev S1x768 : Shape := ⟨2, ![1, 768]⟩
abbrev S16x1x768 : Shape := ⟨3, ![16, 1, 768]⟩
abbrev S_ : Shape := ⟨0, ![]⟩
abbrev S16x4096 : Shape := ⟨2, ![16, 4096]⟩
abbrev S16x4096x1 : Shape := ⟨3, ![16, 4096, 1]⟩
abbrev S1x1x768 : Shape := ⟨3, ![1, 1, 768]⟩

abbrev nBuf : Space → Nat
  | .hbm => 70
  | .vmem => 0
  | .smem => 0
  | _ => 0

abbrev bufTy : (tb : Table) → Fin (tcTables nBuf tb) → BufTy
  | .hbm, ⟨0, _⟩ => ⟨S16x768x64x64, .f32⟩
  | .hbm, ⟨1, _⟩ => ⟨S16x1024, .f32⟩
  | .hbm, ⟨2, _⟩ => ⟨S768x1024, .f32⟩
  | .hbm, ⟨3, _⟩ => ⟨S768, .f32⟩
  | .hbm, ⟨4, _⟩ => ⟨S2304x768, .f32⟩
  | .hbm, ⟨5, _⟩ => ⟨S2304, .f32⟩
  | .hbm, ⟨6, _⟩ => ⟨S768x768, .f32⟩
  | .hbm, ⟨7, _⟩ => ⟨S768, .f32⟩
  | .hbm, ⟨8, _⟩ => ⟨S768x768, .f32⟩
  | .hbm, ⟨9, _⟩ => ⟨S768, .f32⟩
  | .hbm, ⟨10, _⟩ => ⟨S768, .f32⟩
  | .hbm, ⟨11, _⟩ => ⟨S768, .f32⟩
  | .hbm, ⟨12, _⟩ => ⟨S16x768x4096, .f32⟩
  | .hbm, ⟨13, _⟩ => ⟨S16x4096x768, .f32⟩
  | .hbm, ⟨14, _⟩ => ⟨S1024x768, .f32⟩
  | .hbm, ⟨15, _⟩ => ⟨S16x768, .f32⟩
  | .hbm, ⟨16, _⟩ => ⟨S1x768, .f32⟩
  | .hbm, ⟨17, _⟩ => ⟨S16x768, .f32⟩
  | .hbm, ⟨18, _⟩ => ⟨S16x768, .f32⟩
  | .hbm, ⟨19, _⟩ => ⟨S768x768, .f32⟩
  | .hbm, ⟨20, _⟩ => ⟨S768, .f32⟩
  | .hbm, ⟨21, _⟩ => ⟨S768x768, .f32⟩
  | .hbm, ⟨22, _⟩ => ⟨S16x768, .f32⟩
  | .hbm, ⟨23, _⟩ => ⟨S1x768, .f32⟩
  | .hbm, ⟨24, _⟩ => ⟨S16x768, .f32⟩
  | .hbm, ⟨25, _⟩ => ⟨S16x768, .f32⟩
  | .hbm, ⟨26, _⟩ => ⟨S768x768, .f32⟩
  | .hbm, ⟨27, _⟩ => ⟨S16x768, .f32⟩
  | .hbm, ⟨28, _⟩ => ⟨S1x768, .f32⟩
  | .hbm, ⟨29, _⟩ => ⟨S16x768, .f32⟩
  | .hbm, ⟨30, _⟩ => ⟨S16x768, .f32⟩
  | .hbm, ⟨31, _⟩ => ⟨S768x768, .f32⟩
  | .hbm, ⟨32, _⟩ => ⟨S16x768, .f32⟩
  | .hbm, ⟨33, _⟩ => ⟨S1x768, .f32⟩
  | .hbm, ⟨34, _⟩ => ⟨S16x768, .f32⟩
  | .hbm, ⟨35, _⟩ => ⟨S16x768, .f32⟩
  | .hbm, ⟨36, _⟩ => ⟨S16x1x768, .f32⟩
  | .hbm, ⟨37, _⟩ => ⟨S16x4096x768, .f32⟩
  | .hbm, ⟨38, _⟩ => ⟨S16x4096x768, .f32⟩
  | .hbm, ⟨39, _⟩ => ⟨S_, .f32⟩
  | .hbm, ⟨40, _⟩ => ⟨S16x4096, .f32⟩
  | .hbm, ⟨41, _⟩ => ⟨S16x4096x1, .f32⟩
  | .hbm, ⟨42, _⟩ => ⟨S_, .f32⟩
  | .hbm, ⟨43, _⟩ => ⟨S16x4096x1, .f32⟩
  | .hbm, ⟨44, _⟩ => ⟨S16x4096x1, .f32⟩
  | .hbm, ⟨45, _⟩ => ⟨S16x4096x768, .f32⟩
  | .hbm, ⟨46, _⟩ => ⟨S16x4096x768, .f32⟩
  | .hbm, ⟨47, _⟩ => ⟨S16x4096x768, .f32⟩
  | .hbm, ⟨48, _⟩ => ⟨S_, .f32⟩
  | .hbm, ⟨49, _⟩ => ⟨S16x4096, .f32⟩
  | .hbm, ⟨50, _⟩ => ⟨S16x4096x1, .f32⟩
  | .hbm, ⟨51, _⟩ => ⟨S_, .f32⟩
  | .hbm, ⟨52, _⟩ => ⟨S16x4096x1, .f32⟩
  | .hbm, ⟨53, _⟩ => ⟨S16x4096x1, .f32⟩
  | .hbm, ⟨54, _⟩ => ⟨S16x4096x768, .f32⟩
  | .hbm, ⟨55, _⟩ => ⟨S16x4096x768, .f32⟩
  | .hbm, ⟨56, _⟩ => ⟨S_, .f32⟩
  | .hbm, ⟨57, _⟩ => ⟨S16x4096x1, .f32⟩
  | .hbm, ⟨58, _⟩ => ⟨S16x4096x1, .f32⟩
  | .hbm, ⟨59, _⟩ => ⟨S16x4096x1, .f32⟩
  | .hbm, ⟨60, _⟩ => ⟨S16x4096x768, .f32⟩
  | .hbm, ⟨61, _⟩ => ⟨S16x4096x768, .f32⟩
  | .hbm, ⟨62, _⟩ => ⟨S1x1x768, .f32⟩
  | .hbm, ⟨63, _⟩ => ⟨S16x4096x768, .f32⟩
  | .hbm, ⟨64, _⟩ => ⟨S16x4096x768, .f32⟩
  | .hbm, ⟨65, _⟩ => ⟨S1x1x768, .f32⟩
  | .hbm, ⟨66, _⟩ => ⟨S16x4096x768, .f32⟩
  | .hbm, ⟨67, _⟩ => ⟨S16x4096x768, .f32⟩
  | .hbm, ⟨68, _⟩ => ⟨S16x768x4096, .f32⟩
  | .hbm, ⟨69, _⟩ => ⟨S16x768x64x64, .f32⟩
  | _, _ => ⟨S16x768x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst : Ref sig .tc := ⟨.hbm, 39, rfl⟩
abbrev main_v27 : Ref sig .tc := ⟨.hbm, 40, rfl⟩
abbrev main_v28 : Ref sig .tc := ⟨.hbm, 41, rfl⟩
abbrev main_cst_0 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_1 : Ref sig .tc := ⟨.hbm, 48, rfl⟩
abbrev main_v34 : Ref sig .tc := ⟨.hbm, 49, rfl⟩
abbrev main_v35 : Ref sig .tc := ⟨.hbm, 50, rfl⟩
abbrev main_cst_2 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_3 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩

abbrev nD : Nat := 1
abbrev τ : Topo := Topo.v7x

variable {F : FTy → Type} [FloatOps F]

class Facts₀ : Prop where
  shapeCasts_S16x768x64x64_S16x768x4096 : S16x768x64x64.ShapeCasts S16x768x4096
  transposes_S16x768x4096_S16x4096x768_0_2_1 : S16x768x4096.Transposes [0, 2, 1] S16x4096x768
  transposes_S768x1024_S1024x768_1_0 : S768x1024.Transposes [1, 0] S1024x768
  bcast_S768_S1x768_1 : S768.BroadcastsInDim S1x768 (![1] : Fin 1 → Fin S1x768.rank)
  bcast_S1x768_S16x768_0_1 : S1x768.BroadcastsInDim S16x768 (![0, 1] : Fin 2 → Fin S16x768.rank)
  slices_S2304x768_S768x768_1536_0 : S2304x768.Slices ![1536, 0] S768x768
  slices_S2304_S768_1536 : S2304.Slices ![1536] S768
  transposes_S768x768_S768x768_1_0 : S768x768.Transposes [1, 0] S768x768
  bcast_S16x768_S16x1x768_0_2 : S16x768.BroadcastsInDim S16x1x768 (![0, 2] : Fin 2 → Fin S16x1x768.rank)
  bcast_S16x1x768_S16x4096x768_0_1_2 : S16x1x768.BroadcastsInDim S16x4096x768 (![0, 1, 2] : Fin 3 → Fin S16x4096x768.rank)
  reducesTo_S16x4096x768_S16x4096_d2 : S16x4096x768.ReducesTo [2] S16x4096
  h_S_ : 0 < S_.numel
  bcast_S16x4096_S16x4096x1_0_1 : S16x4096.BroadcastsInDim S16x4096x1 (![0, 1] : Fin 2 → Fin S16x4096x1.rank)
  bcast_S_S16x4096x1 : S_.BroadcastsInDim S16x4096x1 (![] : Fin 0 → Fin S16x4096x1.rank)
  bcast_S16x4096x1_S16x4096x768_0_1_2 : S16x4096x1.BroadcastsInDim S16x4096x768 (![0, 1, 2] : Fin 3 → Fin S16x4096x768.rank)
  bcast_S768_S1x1x768_2 : S768.BroadcastsInDim S1x1x768 (![2] : Fin 1 → Fin S1x1x768.rank)
  bcast_S1x1x768_S16x4096x768_0_1_2 : S1x1x768.BroadcastsInDim S16x4096x768 (![0, 1, 2] : Fin 3 → Fin S16x4096x768.rank)
  transposes_S16x4096x768_S16x768x4096_0_2_1 : S16x4096x768.Transposes [0, 2, 1] S16x768x4096
  shapeCasts_S16x768x4096_S16x768x64x64 : S16x768x4096.ShapeCasts S16x768x64x64
  dot_S16x1024_S1024x768_S16x768_1_0_0_1_n_n_wf : DotDims.WF S16x1024 S1024x768 S16x768 [1] [0] [0] [1] [] []
  dot_S16x768_S768x768_S16x768_1_0_0_1_n_n_wf : DotDims.WF S16x768 S768x768 S16x768 [1] [0] [0] [1] [] []

variable [Facts₀]

def dot_S16x1024_S1024x768_S16x768_1_0_0_1_n_n : DotDims S16x1024 S1024x768 S16x768 where
  lhsContracting := [1]
  rhsContracting := [0]
  lhsNonContracting := [0]
  rhsNonContracting := [1]
  lhsBatch := []
  rhsBatch := []
  wf := dot_S16x1024_S1024x768_S16x768_1_0_0_1_n_n_wf
def dot_S16x768_S768x768_S16x768_1_0_0_1_n_n : DotDims S16x768 S768x768 S16x768 where
  lhsContracting := [1]
  rhsContracting := [0]
  lhsNonContracting := [0]
  rhsNonContracting := [1]
  lhsBatch := []
  rhsBatch := []
  wf := dot_S16x768_S768x768_S16x768_1_0_0_1_n_n_wf

class Facts : Prop extends Facts₀ where

variable [Facts]
-- ==== Proof.LibAxisForms.lean ====
/-
  RE-LAYOUTS AND ONE-AXIS REDUCTIONS READ AT AN INDEX GIVEN BY COORDINATES. A reusable lemma file in the style of the
  library's Lib/ValueLayout.lean: every lemma is over generic extents and reads one operation at an index written
  `ixN …`, so that it applies to a printed operation at literal shapes by unification.
  • A UNIT AXIS ADDED by a shape cast in the middle or at the end: `shapeCast_ab_a1b_apply`, `shapeCast_ab_ab1_apply`,
    `shapeCast_a_a1_apply` (the two groups of letters spell the operand's shape and the result's): the result at an
    index is the operand at the index with the unit coordinate left out.
  • A UNIT AXIS BROADCAST to an extent: `broadcastTo_a1c_abc_apply`, `broadcastTo_ab1_abc_apply`,
    `broadcastTo_a1_ab_apply`: the result at an index is the operand at the index with `0` on the unit axis.
  • ROWS SPLIT in two by a shape cast: `shapeCast_rc_abc_apply`: an `[r, c]` array cast to `[a, b, c]` reads, at
    `(i, j, k)`, row `i * b + j` at column `k`.
  • ONE-AXIS REDUCTIONS at the ideal instance (extended reals): the maximum over the rows of a matrix
    (`maxAxis0_apply`, a fold of `max` from the accumulator's value), and the sums over the rows or the columns of a
    matrix (`sumAxis0_apply`, `sumAxis1_of2_apply`) and over the last or the middle axis of a rank-3 array
    (`sumAxis2_of3_apply`, `sumAxis1_of3_apply`), each as the `Fin`-indexed sum over the reduced axis's coordinate
    with the source read at `ixN` coordinates. Each takes the format fact and the accumulator's equation as arguments, so it
    applies by `exact`, `.trans` or `erw`; the `…_f32` forms after them (`maxAxis0_f32`, `sumAxis0_f32`,
    `sumAxis1_of2_f32`, `sumAxis2_of3_f32`, `sumAxis1_of3_f32`) have both filled in as a 32-bit float kernel prints
    them, for a plain `rw`.
-/
import Idealize.ShloMosaic.Lib.ValueLayout
import Idealize.ShloMosaic.PureOps.Ideal.Laws

open scoped BigOperators

namespace Cert.AxisForms

open Idealize.ShloMosaic Idealize.ShloMosaic.ValueIdx

variable {α : Type}

/-! ## A unit axis added by a shape cast -/

/-- An `[a, b]` array cast to `[a, 1, b]` reads, at `(i, u, j)`, the operand at `(i, j)`, whatever the unit
coordinate `u`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a]` array cast to `[a, 1]` reads, at `(i, u)`, the operand at `i`, whatever the unit coordinate `u`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, b]` array cast to `[a, b, 1]` reads, at `(i, j, u)`, the operand at `(i, j)`, whatever the unit
coordinate `u`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-! ## A unit axis broadcast to an extent -/

/-- An `[a, 1, c]` array broadcast to `[a, b, c]` reads, at `(i, j, k)`, the operand at `(i, 0, k)`. -/
theorem broadcastTo_a1c_abc_apply {a b c : ℕ} (x : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ x h (ix3 i j k) = x (ix3 i (0 : Fin 1) k) := by
  refine broadcastTo_apply x h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- An `[a, 1]` array broadcast to `[a, b]` reads, at `(i, j)`, the operand at `(i, 0)`. -/
theorem broadcastTo_a1_ab_apply {a b : ℕ} (x : (⟨2, ![a, 1]⟩ : Shape).Idx → α)
    (h : (⟨2, ![a, 1]⟩ : Shape).Broadcasts ⟨2, ![a, b]⟩) (i : Fin a) (j : Fin b) :
    broadcastTo ⟨2, ![a, b]⟩ x h (ix2 i j) = x (ix2 i (0 : Fin 1)) := by
  refine broadcastTo_apply x h (ix2 i j) (ix2 i (0 : Fin 1)) fun ax => ?_
  match ax with
  | ⟨0, _⟩ =>
    show i.val = if a = 1 then 0 else i.val
    split
    · have := i.isLt; omega
    · rfl
  | ⟨1, _⟩ => rfl

/-- An `[a, b, 1]` array broadcast to `[a, b, c]` reads, at `(i, j, k)`, the operand at `(i, j, 0)`. -/
theorem broadcastTo_ab1_abc_apply {a b c : ℕ} (x : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ x h (ix3 i j k) = x (ix3 i j (0 : Fin 1)) := by
  refine broadcastTo_apply x h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-! ## Rows split in two by a shape cast -/

/-- An `[r, c]` array cast to `[a, b, c]` reads, at `(i, j, k)`, the operand's row `i * b + j` at column `k`. -/
theorem shapeCast_rc_abc_apply {r a b c : ℕ} (x : (⟨2, ![r, c]⟩ : Shape).Idx → α)
    (h : (⟨2, ![r, c]⟩ : Shape).ShapeCasts ⟨3, ![a, b, c]⟩) (i : Fin a) (j : Fin b) (k : Fin c)
    (hlt : i.val * b + j.val < r) :
    shapeCast ⟨3, ![a, b, c]⟩ x h (ix3 i j k) = x (ix2 (⟨i.val * b + j.val, hlt⟩ : Fin r) k) :=
  shapeCast_apply x h _ _ (by
    rw [Shape.rowMajor_val_three, Shape.rowMajor_val_two]
    rfl)

/-! ## One-axis reductions at the ideal instance -/

/-- The maximum over the rows of an `[a, b]` matrix reads, at column `j`, the fold of `max` from the accumulator's
value over the column's entries `(i, j)`. -/
theorem maxAxis0_apply {a b : ℕ} {φ : FTy} (src : FVec Ideal ⟨2, ![a, b]⟩ φ) (acc : BitVec φ.bits)
    (h : (⟨2, ![a, b]⟩ : Shape).Reduces [0] ⟨1, ![b]⟩) (hφ : FKind.Formats φ)
    (hacc : acc = FKind.maximumf.neutral φ hφ) (j : Fin b) :
    multiReduction .maximumf [0] ⟨1, ![b]⟩ src acc h hφ hacc (ix1 j)
      = (Finset.univ : Finset (Fin a)).fold max (Ideal.ofBits φ acc) (fun i => src (ix2 i j)) :=
  (Ideal.multiReduction_maximumf_single src acc h hφ hacc (ix1 j)).trans
    (congrArg (fun f : Fin a → Ideal φ => (Finset.univ : Finset (Fin a)).fold max (Ideal.ofBits φ acc) f)
      (funext fun i => congrArg src (funext fun c => Fin.ext (by
        match c with
        | ⟨0, _⟩ => rfl
        | ⟨1, _⟩ => rfl))))

/-- The sum over the rows of an `[a, b]` matrix reads, at column `j`, the sum of the column's entries `(i, j)`. -/
theorem sumAxis0_apply {a b : ℕ} {φ : FTy} (src : FVec Ideal ⟨2, ![a, b]⟩ φ) (acc : BitVec φ.bits)
    (h : (⟨2, ![a, b]⟩ : Shape).Reduces [0] ⟨1, ![b]⟩) (hφ : FKind.Formats φ)
    (hacc : acc = FKind.add.neutral φ hφ) (j : Fin b) :
    multiReduction .add [0] ⟨1, ![b]⟩ src acc h hφ hacc (ix1 j) = ∑ i : Fin a, src (ix2 i j) :=
  (Ideal.multiReduction_add_single src acc h hφ hacc (ix1 j)).trans
    (Finset.sum_congr rfl fun i _ => congrArg src (funext fun c => Fin.ext (by
      match c with
      | ⟨0, _⟩ => rfl
      | ⟨1, _⟩ => rfl)))

/-- The sum over the columns of an `[a, b]` matrix reads, at row `i`, the sum of the row's entries `(i, j)`. -/
theorem sumAxis1_of2_apply {a b : ℕ} {φ : FTy} (src : FVec Ideal ⟨2, ![a, b]⟩ φ) (acc : BitVec φ.bits)
    (h : (⟨2, ![a, b]⟩ : Shape).Reduces [1] ⟨1, ![a]⟩) (hφ : FKind.Formats φ)
    (hacc : acc = FKind.add.neutral φ hφ) (i : Fin a) :
    multiReduction .add [1] ⟨1, ![a]⟩ src acc h hφ hacc (ix1 i) = ∑ j : Fin b, src (ix2 i j) :=
  (Ideal.multiReduction_add_single src acc h hφ hacc (ix1 i)).trans
    (Finset.sum_congr rfl fun j _ => congrArg src (funext fun c => Fin.ext (by
      match c with
      | ⟨0, _⟩ => rfl
      | ⟨1, _⟩ => rfl)))

/-- The sum over the last axis of an `[a, b, c]` array reads, at `(i, j)`, the sum of the entries `(i, j, k)`. -/
theorem sumAxis2_of3_apply {a b c : ℕ} {φ : FTy} (src : FVec Ideal ⟨3, ![a, b, c]⟩ φ) (acc : BitVec φ.bits)
    (h : (⟨3, ![a, b, c]⟩ : Shape).Reduces [2] ⟨2, ![a, b]⟩) (hφ : FKind.Formats φ)
    (hacc : acc = FKind.add.neutral φ hφ) (i : Fin a) (j : Fin b) :
    multiReduction .add [2] ⟨2, ![a, b]⟩ src acc h hφ hacc (ix2 i j) = ∑ k : Fin c, src (ix3 i j k) :=
  (Ideal.multiReduction_add_single src acc h hφ hacc (ix2 i j)).trans
    (Finset.sum_congr rfl fun k _ => congrArg src (funext fun d => Fin.ext (by
      match d with
      | ⟨0, _⟩ => rfl
      | ⟨1, _⟩ => rfl
      | ⟨2, _⟩ => rfl)))

/-- The sum over the middle axis of an `[a, b, c]` array reads, at `(i, k)`, the sum of the entries `(i, j, k)`. -/
theorem sumAxis1_of3_apply {a b c : ℕ} {φ : FTy} (src : FVec Ideal ⟨3, ![a, b, c]⟩ φ) (acc : BitVec φ.bits)
    (h : (⟨3, ![a, b, c]⟩ : Shape).Reduces [1] ⟨2, ![a, c]⟩) (hφ : FKind.Formats φ)
    (hacc : acc = FKind.add.neutral φ hφ) (i : Fin a) (k : Fin c) :
    multiReduction .add [1] ⟨2, ![a, c]⟩ src acc h hφ hacc (ix2 i k) = ∑ j : Fin b, src (ix3 i j k) :=
  (Ideal.multiReduction_add_single src acc h hφ hacc (ix2 i k)).trans
    (Finset.sum_congr rfl fun j _ => congrArg src (funext fun d => Fin.ext (by
      match d with
      | ⟨0, _⟩ => rfl
      | ⟨1, _⟩ => rfl
      | ⟨2, _⟩ => rfl)))

/-! ## The same reductions at the accumulators a 32-bit float kernel prints, as rewrite rules

The lemmas above take the format fact and the accumulator's equation as arguments; a printed kernel gives them as
`(.inl rfl)` and `rfl` at a literal word, and a rewrite cannot fill the two arguments in from those. Here they are
filled in: the maximum from the word of `-∞`, the sums from the word of `0`. -/

/-- `maxAxis0_apply` at 32-bit floats from the word of `-∞`. -/
theorem maxAxis0_f32 {a b : ℕ} (src : FVec Ideal ⟨2, ![a, b]⟩ .f32)
    (h : (⟨2, ![a, b]⟩ : Shape).Reduces [0] ⟨1, ![b]⟩) (j : Fin b) :
    multiReduction .maximumf [0] ⟨1, ![b]⟩ src 0xFF800000#32 h (.inl rfl) rfl (ix1 j)
      = (Finset.univ : Finset (Fin a)).fold max (Ideal.ofBits .f32 0xFF800000#32) (fun i => src (ix2 i j)) :=
  maxAxis0_apply src _ h _ _ j

/-- `sumAxis0_apply` at 32-bit floats from the word of `0`. -/
theorem sumAxis0_f32 {a b : ℕ} (src : FVec Ideal ⟨2, ![a, b]⟩ .f32)
    (h : (⟨2, ![a, b]⟩ : Shape).Reduces [0] ⟨1, ![b]⟩) (j : Fin b) :
    multiReduction .add [0] ⟨1, ![b]⟩ src 0x00000000#32 h (.inl rfl) rfl (ix1 j) = ∑ i : Fin a, src (ix2 i j) :=
  sumAxis0_apply src _ h _ _ j

/-- `sumAxis1_of2_apply` at 32-bit floats from the word of `0`. -/
theorem sumAxis1_of2_f32 {a b : ℕ} (src : FVec Ideal ⟨2, ![a, b]⟩ .f32)
    (h : (⟨2, ![a, b]⟩ : Shape).Reduces [1] ⟨1, ![a]⟩) (i : Fin a) :
    multiReduction .add [1] ⟨1, ![a]⟩ src 0x00000000#32 h (.inl rfl) rfl (ix1 i) = ∑ j : Fin b, src (ix2 i j) :=
  sumAxis1_of2_apply src _ h _ _ i

/-- `sumAxis2_of3_apply` at 32-bit floats from the word of `0`. -/
theorem sumAxis2_of3_f32 {a b c : ℕ} (src : FVec Ideal ⟨3, ![a, b, c]⟩ .f32)
    (h : (⟨3, ![a, b, c]⟩ : Shape).Reduces [2] ⟨2, ![a, b]⟩) (i : Fin a) (j : Fin b) :
    multiReduction .add [2] ⟨2, ![a, b]⟩ src 0x00000000#32 h (.inl rfl) rfl (ix2 i j) = ∑ k : Fin c, src (ix3 i j k) :=
  sumAxis2_of3_apply src _ h _ _ i j

/-- `sumAxis1_of3_apply` at 32-bit floats from the word of `0`. -/
theorem sumAxis1_of3_f32 {a b c : ℕ} (src : FVec Ideal ⟨3, ![a, b, c]⟩ .f32)
    (h : (⟨3, ![a, b, c]⟩ : Shape).Reduces [1] ⟨2, ![a, c]⟩) (i : Fin a) (k : Fin c) :
    multiReduction .add [1] ⟨2, ![a, c]⟩ src 0x00000000#32 h (.inl rfl) rfl (ix2 i k) = ∑ j : Fin b, src (ix3 i j k) :=
  sumAxis1_of3_apply src _ h _ _ i k

end Cert.AxisForms
-- ==== Proof.LnSpec.lean ====
/-
  The mathematics both programs compute, stated once.

  For a batch `n` and a spatial position `s`, the column `k ↦ x[n, k, s] + p[n, k]` of 768 channel values is
  normalised: with `μ` the column's mean (the sum divided by 768) and `v` the mean of the squared deviations, the
  result at channel `c` is `(col c − μ) · rsqrt (v + ε) · γ[c] + β[c]`. Everything is read on the extended reals:
  the sums are finite sums, the divisions are `Ideal.div` by the real the word `0x44400000` denotes (768), `ε` is
  the real the word `0x3727C5AC` denotes, and `rsqrt` is `Ideal.rsqrt`. Neither word is ever evaluated: both
  programs carry the same two words.

  `lnEntry` is the column's result at one channel. `lnAt` reads it at coordinates `(n, c, s)` of a
  `[16, 768, 4096]` array with the bias `p` a `[16, 768]` matrix and the affine pair vectors of length 768, and
  `lnArr` is that array. `lnColsAt` / `lnArrCols` are the same with the bias and the affine pair given as columns
  (a trailing unit axis), the way a block of rows meets them.
-/
import Idealize.ShloMosaic.PureOps.Ideal
import Idealize.ShloMosaic.Lib.ValueIdx
import proofs.«150646_j8443905704449_1_alg».proof.Proof.LibAxisForms

open scoped BigOperators

noncomputable section

namespace Cert.LnSpec

open Idealize.ShloMosaic Idealize.ShloMosaic.ValueIdx

/-- The mean of 768 extended reals: their sum over the real `768`. -/
def mean768 (f : Fin 768 → EReal) : EReal := Ideal.div (∑ k : Fin 768, f k) (Ideal.ofBits .f32 0x44400000#32)

/-- Layer normalisation of one column of 768 values, at channel `c`, with scale `g` and shift `b`. -/
def lnEntry (col : Fin 768 → EReal) (g b : EReal) (c : Fin 768) : EReal :=
  (col c - mean768 col)
      * Ideal.rsqrt (mean768 (fun k => (col k - mean768 col) * (col k - mean768 col)) + Ideal.ofBits .f32 0x3727C5AC#32)
      * g + b

/-- The normalised value at batch `n`, channel `c`, position `s`: the column `k ↦ x[n, k, s] + p[n, k]`
    normalised at `c`. -/
def lnAt (x : FVec Ideal ⟨3, ![16, 768, 4096]⟩ .f32) (p : FVec Ideal ⟨2, ![16, 768]⟩ .f32)
    (g b : FVec Ideal ⟨1, ![768]⟩ .f32) (n : Fin 16) (c : Fin 768) (s : Fin 4096) : EReal :=
  lnEntry (fun k => x (ix3 n k s) + p (ix2 n k)) (g (ix1 c)) (b (ix1 c)) c

/-- The normalised array. -/
def lnArr (x : FVec Ideal ⟨3, ![16, 768, 4096]⟩ .f32) (p : FVec Ideal ⟨2, ![16, 768]⟩ .f32)
    (g b : FVec Ideal ⟨1, ![768]⟩ .f32) : FVec Ideal ⟨3, ![16, 768, 4096]⟩ .f32 :=
  fun i => lnAt x p g b (i 0) (i 1) (i 2)

/-- The same value with the bias a `[16, 768, 1]` array and scale and shift `[768, 1]` columns. -/
def lnColsAt (x : FVec Ideal ⟨3, ![16, 768, 4096]⟩ .f32) (p : FVec Ideal ⟨3, ![16, 768, 1]⟩ .f32)
    (g b : FVec Ideal ⟨2, ![768, 1]⟩ .f32) (n : Fin 16) (c : Fin 768) (s : Fin 4096) : EReal :=
  lnEntry (fun k => x (ix3 n k s) + p (ix3 n k (0 : Fin 1))) (g (ix2 c (0 : Fin 1))) (b (ix2 c (0 : Fin 1))) c

/-- The same array in the column form. -/
def lnArrCols (x : FVec Ideal ⟨3, ![16, 768, 4096]⟩ .f32) (p : FVec Ideal ⟨3, ![16, 768, 1]⟩ .f32)
    (g b : FVec Ideal ⟨2, ![768, 1]⟩ .f32) : FVec Ideal ⟨3, ![16, 768, 4096]⟩ .f32 :=
  fun i => lnColsAt x p g b (i 0) (i 1) (i 2)

/-- A matrix and two vectors given a trailing unit axis by a shape cast: the column form is the plain form. -/
theorem lnColsAt_cast (x : FVec Ideal ⟨3, ![16, 768, 4096]⟩ .f32) (p : FVec Ideal ⟨2, ![16, 768]⟩ .f32)
    (g b : FVec Ideal ⟨1, ![768]⟩ .f32)
    (hp : (⟨2, ![16, 768]⟩ : Shape).ShapeCasts ⟨3, ![16, 768, 1]⟩)
    (hg : (⟨1, ![768]⟩ : Shape).ShapeCasts ⟨2, ![768, 1]⟩) (n : Fin 16) (c : Fin 768) (s : Fin 4096) :
    lnColsAt x (shapeCast ⟨3, ![16, 768, 1]⟩ p hp) (shapeCast ⟨2, ![768, 1]⟩ g hg) (shapeCast ⟨2, ![768, 1]⟩ b hg) n c s
      = lnAt x p g b n c s := by
  unfold lnColsAt lnAt
  simp only [Cert.AxisForms.shapeCast_ab_ab1_apply, Cert.AxisForms.shapeCast_a_a1_apply]

theorem lnArrCols_cast (x : FVec Ideal ⟨3, ![16, 768, 4096]⟩ .f32) (p : FVec Ideal ⟨2, ![16, 768]⟩ .f32)
    (g b : FVec Ideal ⟨1, ![768]⟩ .f32)
    (hp : (⟨2, ![16, 768]⟩ : Shape).ShapeCasts ⟨3, ![16, 768, 1]⟩)
    (hg : (⟨1, ![768]⟩ : Shape).ShapeCasts ⟨2, ![768, 1]⟩) :
    lnArrCols x (shapeCast ⟨3, ![16, 768, 1]⟩ p hp) (shapeCast ⟨2, ![768, 1]⟩ g hg) (shapeCast ⟨2, ![768, 1]⟩ b hg)
      = lnArr x p g b :=
  funext fun i => lnColsAt_cast x p g b hp hg (i 0) (i 1) (i 2)

end Cert.LnSpec

end
-- ==== Proof.KernelEntry.lean ====
/-
  One block of the kernel, read at an entry.

  The body loads a `[1, 768, 1024]` block `x0` of the activations (768 channels, 1024 positions), the batch's bias
  column `x1 : [1, 768, 1]`, and the scale and shift columns `x2, x3 : [768, 1]`. It drops the leading unit axis,
  spreads each column along the positions, sums over the channel axis (axis 0 of `[768, 1024]`) to one row of 1024
  values, lays that row as `[1, 1024]`, spreads it back down the 768 channels, and stores the result with the unit
  axis put back. Read at channel `c` and position `s`, every one of those steps is a re-indexing, and the sum over
  axis 0 is the sum over the channel coordinate: the stored value is the column `k ↦ x0[0, k, s] + x1[0, k, 0]`
  normalised at `c` with scale `x2[c, 0]` and shift `x3[c, 0]`.
-/
import proofs.«150646_j8443905704449_1_alg».proof.Proof.Gen.KernelIdeal.Skeleton
import proofs.«150646_j8443905704449_1_alg».proof.Proof.LnSpec
import Idealize.ShloMosaic.Lib.ValueLayout
import Idealize.ShloMosaic.PureOps.Ideal.Laws

open scoped BigOperators

noncomputable section

namespace Cert.KernelIdeal.LnBlock

open Cert.KernelIdeal Cert.KernelIdeal.Gen Idealize.ShloMosaic Idealize.ShloMosaic.ValueIdx Cert.LnSpec

/-- The reciprocal square root of a vector, entry by entry, is the extended reals' `rsqrt`. -/
theorem rsqrt_apply {s : Shape} {φ : FTy} (a : FVec Ideal s φ) (i : s.Idx) : rsqrt a i = Ideal.rsqrt (a i) := rfl

/-- The body's stored value at `(u, c, s)`: the column of the block at position `s`, shifted by the bias column,
    normalised at channel `c`. -/
theorem pay_apply (x0 : Vec Ideal S1x768x1024 .f32) (x1 : Vec Ideal S1x768x1 .f32) (x2 x3 : Vec Ideal S768x1 .f32)
    (u : Fin 1) (c : Fin 768) (s : Fin 1024) :
    k0_pay1 (F := Ideal) x0 x1 x2 x3 (ix3 u c s)
      = lnEntry (fun k => x0 (ix3 (0 : Fin 1) k s) + x1 (ix3 (0 : Fin 1) k (0 : Fin 1)))
          (x2 (ix2 c (0 : Fin 1))) (x3 (ix2 c (0 : Fin 1))) c := by
  unfold k0_pay1 lnEntry mean768
  -- every step but the two sums is a re-indexing or entry-wise; each sum over axis 0, once it is read at a position,
  -- is the sum over the channel coordinate
  repeat (first
    | rw [Cert.AxisForms.sumAxis0_f32]
    | simp only [shapeCast_ab_1ab_apply, addf_apply, mulf_apply, subf_apply, divf_apply, rsqrt_apply, broadcast_apply,
        shapeCast_1ab_ab_apply, Cert.AxisForms.broadcastTo_a1_ab_apply, broadcastTo_1b_ab_apply, shapeCast_a_1a_apply,
        shapeCast_self, Ideal.ofBits_def])

end Cert.KernelIdeal.LnBlock

end
-- ==== Proof.KernelArray.lean ====
/-
  From blocks to the array.

  The grid has 16 × 4 points: point `(n, q)` takes batch `n` and the `q`-th tile of 1024 positions. Its activation
  block is `x[n, :, 1024 q … 1024 q + 1023]`, its bias block is the batch's column `p[n, :, 0]`, and the scale and shift
  columns are the same at every point. The block it writes back is the normalised array restricted to the same
  rectangle, because normalisation works column by column and a column (fixed batch and position, all 768 channels)
  lies inside one block. The output blocks tile the `[16, 768, 4096]` array — position `s` of batch `n` is in the
  block of point `(n, s / 1024)` — so after the last point the array is the normalised array everywhere.
-/
import proofs.«150646_j8443905704449_1_alg».proof.Proof.Gen.KernelIdeal.Frame
import proofs.«150646_j8443905704449_1_alg».proof.Proof.KernelEntry
import Idealize.ShloMosaic.Lib.Pipeline.Value

set_option maxRecDepth 16384

noncomputable section

open Idealize.ShloMosaic Idealize.ShloMosaic.TcCoe Idealize.SL.Sem
open Idealize.ShloMosaic.Pipeline (Dat)

namespace Cert.KernelIdeal.LnValue

open Cert.KernelIdeal Cert.KernelIdeal.Gen Idealize.ShloMosaic.ValueIdx Cert.LnSpec Cert.KernelIdeal.LnBlock

variable (m : (ℓ : Loc nD τ sig) → Buf (Elt Ideal) ℓ)

theorem hz3 : (![0, 0, 0] : Fin 3 → Nat) = fun _ => 0 := funext fun a => by fin_cases a <;> rfl
theorem hz2 : (![0, 0] : Fin 2 → Nat) = fun _ => 0 := funext fun a => by fin_cases a <;> rfl

/-- The four arrays the region reads, as it finds them: the activations `[16, 768, 4096]`, the bias as a
    `[16, 768, 1]` array, the scale and shift as `[768, 1]` columns. -/
abbrev xarr (c : Dev nD) : FVec Ideal S16x768x4096 .f32 := V m c main_v22
abbrev parr (c : Dev nD) : FVec Ideal S16x768x1 .f32 := V m c main_v23
abbrev garr (c : Dev nD) : FVec Ideal S768x1 .f32 := V m c main_v24
abbrev barr (c : Dev nD) : FVec Ideal S768x1 .f32 := V m c main_v25

/-- The block indices of the five windows at a grid point, decided over the 64 points: the activation window moves
    with the output window on the batch and position axes, the bias window on the batch axis, the scale and shift
    windows stay put, and every window takes all 768 channels. -/
theorem idx_facts : ∀ t : Fin cfg0.N,
    win0_0.index t (0 : Fin 3) = win0_4.index t (0 : Fin 3) ∧ win0_0.index t (1 : Fin 3) = 0
    ∧ win0_0.index t (2 : Fin 3) = win0_4.index t (2 : Fin 3)
    ∧ win0_1.index t (0 : Fin 3) = win0_4.index t (0 : Fin 3) ∧ win0_1.index t (1 : Fin 3) = 0
    ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (1 : Fin 3) = 0 ∧ win0_4.index t (0 : Fin 3) ≤ 15 ∧ win0_4.index t (2 : Fin 3) ≤ 3 :=
  (by decide +kernel : ∀ t : Fin grid0.N, _)

/-- Every (batch, tile) pair is some point's output block. -/
theorem idx_onto : ∀ (q0 : Fin 16) (q2 : Fin 4), ∃ t : Fin cfg0.N, win0_4.index t = ![q0.val, 0, q2.val] :=
  (by decide +kernel : ∀ (q0 : Fin 16) (q2 : Fin 4), ∃ t : Fin grid0.N, win0_4.index t = ![q0.val, 0, q2.val])

/-! ## Each input block is the array read where the block lies -/

theorem xblk_apply (c : Dev nD) (t : Fin cfg0.N) (u : Fin 1) (k : Fin 768) (s : Fin 1024) (n : Fin 16) (s' : Fin 4096)
    (hn : n.val = win0_0.index t (0 : Fin 3) * 1 + 1 * u.val)
    (hk : k.val = win0_0.index t (1 : Fin 3) * 768 + 1 * k.val)
    (hs : s'.val = win0_0.index t (2 : Fin 3) * 1024 + 1 * s.val) :
    (iblk m c 0 t : Vec Ideal S1x768x1024 .f32) (ix3 u k s) = xarr m c (ix3 n k s') := by
  unfold iblk
  rw [View.read_apply]
  show V m c main_v22 _ = V m c main_v22 _
  congr 1
  funext a
  apply Fin.ext
  match a with
  | ⟨0, _⟩ => exact hn.symm
  | ⟨1, _⟩ => exact hk.symm
  | ⟨2, _⟩ => exact hs.symm

theorem pblk_apply (c : Dev nD) (t : Fin cfg0.N) (u : Fin 1) (k : Fin 768) (z : Fin 1) (n : Fin 16)
    (hn : n.val = win0_1.index t (0 : Fin 3) * 1 + 1 * u.val)
    (hk : k.val = win0_1.index t (1 : Fin 3) * 768 + 1 * k.val)
    (hz : z.val = win0_1.index t (2 : Fin 3) * 1 + 1 * z.val) :
    (iblk m c 1 t : Vec Ideal S1x768x1 .f32) (ix3 u k z) = parr m c (ix3 n k z) := by
  unfold iblk
  rw [View.read_apply]
  show V m c main_v23 _ = V m c main_v23 _
  congr 1
  funext a
  apply Fin.ext
  match a with
  | ⟨0, _⟩ => exact hn.symm
  | ⟨1, _⟩ => exact hk.symm
  | ⟨2, _⟩ => exact hz.symm

theorem gblk_apply (c : Dev nD) (t : Fin cfg0.N) (k : Fin 768) (z : Fin 1)
    (hk : k.val = win0_2.index t (0 : Fin 2) * 768 + 1 * k.val)
    (hz : z.val = win0_2.index t (1 : Fin 2) * 1 + 1 * z.val) :
    (iblk m c 2 t : Vec Ideal S768x1 .f32) (ix2 k z) = garr m c (ix2 k z) := by
  unfold iblk
  rw [View.read_apply]
  show V m c main_v24 _ = V m c main_v24 _
  congr 1
  funext a
  apply Fin.ext
  match a with
  | ⟨0, _⟩ => exact hk.symm
  | ⟨1, _⟩ => exact hz.symm

theorem bblk_apply (c : Dev nD) (t : Fin cfg0.N) (k : Fin 768) (z : Fin 1)
    (hk : k.val = win0_3.index t (0 : Fin 2) * 768 + 1 * k.val)
    (hz : z.val = win0_3.index t (1 : Fin 2) * 1 + 1 * z.val) :
    (iblk m c 3 t : Vec Ideal S768x1 .f32) (ix2 k z) = barr m c (ix2 k z) := by
  unfold iblk
  rw [View.read_apply]
  show V m c main_v25 _ = V m c main_v25 _
  congr 1
  funext a
  apply Fin.ext
  match a with
  | ⟨0, _⟩ => exact hk.symm
  | ⟨1, _⟩ => exact hz.symm

/-! ## What a point writes back -/

/-- Over block variables: if the activation block is the array's rectangle at batch `n` whose position `s` is the
    array's `s'`, the bias block is batch `n`'s column, and the scale and shift blocks are the columns themselves,
    the body's stored value at `(u, c, s)` is the normalised array at `(n, c, s')`. -/
theorem pay_block (X : FVec Ideal S16x768x4096 .f32) (P : FVec Ideal S16x768x1 .f32) (Gm Bt : FVec Ideal S768x1 .f32)
    (x0 : Vec Ideal S1x768x1024 .f32) (x1 : Vec Ideal S1x768x1 .f32) (x2 x3 : Vec Ideal S768x1 .f32)
    (u : Fin 1) (c : Fin 768) (s : Fin 1024) (n : Fin 16) (s' : Fin 4096)
    (h0 : ∀ k : Fin 768, x0 (ix3 (0 : Fin 1) k s) = X (ix3 n k s'))
    (h1 : ∀ k : Fin 768, x1 (ix3 (0 : Fin 1) k (0 : Fin 1)) = P (ix3 n k (0 : Fin 1)))
    (h2 : x2 (ix2 c (0 : Fin 1)) = Gm (ix2 c (0 : Fin 1))) (h3 : x3 (ix2 c (0 : Fin 1)) = Bt (ix2 c (0 : Fin 1))) :
    k0_pay1 (F := Ideal) x0 x1 x2 x3 (ix3 u c s) = lnColsAt X P Gm Bt n c s' := by
  rw [pay_apply]
  unfold lnColsAt
  simp only [h0, h1, h2, h3]

/-- WHAT POINT `t` WRITES BACK is block `t` of the normalised array of the arrays as the region finds them. -/
theorem flushed_eq (c : Dev nD) (t : Fin cfg0.N) :
    (dats m 0 c).flushed 4 t
      = ((cfg0.win 4).blk t).view.read (Elt Ideal) (lnArrCols (xarr m c) (parr m c) (garr m c) (barr m c)) := by
  show (cfg0.win 4).cut (grid0.coords t) ((dats m 0 c).after 4 t) = _
  rw [after0_4]
  unfold out0_4
  rw [View.canon_unit_zero hz3]
  simp only [View.ld_unit_zero (S := S1x768x1024) hz3, View.ld_unit_zero (S := S1x768x1) hz3,
    View.ld_unit_zero (S := S768x1) hz2]
  obtain ⟨e00, e01, e02, e10, e11, e12, e20, e21, e30, e31, e41, e40, e42⟩ := idx_facts t
  funext j
  rw [View.read_apply]
  have hj0 : (j 0).val < 1 := (j 0).isLt
  have hj1 : (j 1).val < 768 := (j 1).isLt
  have hj2 : (j 2).val < 1024 := (j 2).isLt
  refine (congrArg (fun z : S1x768x1024.Idx => k0_pay1 (F := Ideal) (iblk m c 0 t) (iblk m c 1 t) (iblk m c 2 t) (iblk m c 3 t) z)
    (eq_ix3 (j : S1x768x1024.Idx))).trans ?_
  refine (pay_block (xarr m c) (parr m c) (garr m c) (barr m c) (iblk m c 0 t) (iblk m c 1 t) (iblk m c 2 t) (iblk m c 3 t)
    (j 0) (j 1) (j 2) ⟨win0_4.index t (0 : Fin 3) * 1 + 1 * (j 0).val, by omega⟩
    ⟨win0_4.index t (2 : Fin 3) * 1024 + 1 * (j 2).val, by omega⟩
    (fun k => xblk_apply m c t (0 : Fin 1) k (j 2) _ _
      (by show win0_4.index t (0 : Fin 3) * 1 + 1 * (j 0).val = win0_0.index t (0 : Fin 3) * 1 + 1 * 0; omega)
      (by omega)
      (by show win0_4.index t (2 : Fin 3) * 1024 + 1 * (j 2).val = win0_0.index t (2 : Fin 3) * 1024 + 1 * (j 2).val; omega))
    (fun k => pblk_apply m c t (0 : Fin 1) k (0 : Fin 1) _
      (by show win0_4.index t (0 : Fin 3) * 1 + 1 * (j 0).val = win0_1.index t (0 : Fin 3) * 1 + 1 * 0; omega)
      (by omega) (by show 0 = win0_1.index t (2 : Fin 3) * 1 + 1 * 0; omega))
    (gblk_apply m c t (j 1) (0 : Fin 1) (by omega) (by show 0 = win0_2.index t (1 : Fin 2) * 1 + 1 * 0; omega))
    (bblk_apply m c t (j 1) (0 : Fin 1) (by omega) (by show 0 = win0_3.index t (1 : Fin 2) * 1 + 1 * 0; omega))).trans ?_
  unfold lnArrCols
  congr 1
  apply Fin.ext
  show (j 1).val = win0_4.index t (1 : Fin 3) * 768 + 1 * (j 1).val
  omega

/-! ## The blocks tile the array -/

/-- An index of the array is in point `t`'s block iff each coordinate is in the block's range on its axis. -/
theorem mem_blk (t : Fin cfg0.N) (i : S16x768x4096.Idx) :
    i ∈ ((cfg0.win 4).blk t).view.set ↔ ∀ a : Fin 3, win0_4.index t a * S1x768x1024.size a ≤ (i a).val
      ∧ (i a).val < win0_4.index t a * S1x768x1024.size a + S1x768x1024.size a := by
  show i ∈ ((View.whole main_v26).slice (win0_4.rect t)).set ↔ _
  rw [View.set_slice_whole, Rect.mem_set_unit]
  exact Iff.rfl

/-- Every index is in the block of the point of its batch and of its position's tile. -/
theorem cover (i : S16x768x4096.Idx) :
    ∃ t : Fin cfg0.N, (cfg0.win 4).flush t = true ∧ i ∈ ((cfg0.win 4).blk t).view.set := by
  have hi0 : (i 0).val < 16 := (i 0).isLt
  have hi1 : (i 1).val < 768 := (i 1).isLt
  have hi2 : (i 2).val < 4096 := (i 2).isLt
  obtain ⟨t, ht⟩ := idx_onto ⟨(i 0).val, hi0⟩ ⟨(i 2).val / 1024, by omega⟩
  have q0 : win0_4.index t (0 : Fin 3) = (i 0).val := congrFun ht 0
  have q1 : win0_4.index t (1 : Fin 3) = 0 := congrFun ht 1
  have q2 : win0_4.index t (2 : Fin 3) = (i 2).val / 1024 := congrFun ht 2
  refine ⟨t, flush0_4 t, ?_⟩
  rw [mem_blk]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 768 ≤ (i 1).val ∧ (i 1).val < win0_4.index t (1 : Fin 3) * 768 + 768; omega
  | ⟨2, _⟩ => show win0_4.index t (2 : Fin 3) * 1024 ≤ (i 2).val ∧ (i 2).val < win0_4.index t (2 : Fin 3) * 1024 + 1024; omega

/-- THE ARRAY after the run is the normalised array of the arrays as the region finds them. -/
theorem final (c : Dev nD) :
    (dats m 0 c).arrAt 4 cfg0.N = lnArrCols (xarr m c) (parr m c) (garr m c) (barr m c) :=
  (dats m 0 c).arrAt_eq_of_cover 4 _ (fun t _ => flushed_eq m c t) cover

end Cert.KernelIdeal.LnValue

end
-- ==== Proof.KernelRun.lean ====
/-
  The kernel program's run, read as one value.

  Before the region the host lines compute the bias matrix `p : [16, 768]` (four dense layers on the conditioning
  vector: nothing here looks inside them), flatten the activations' two spatial axes into 4096 positions, and give the
  bias matrix and the scale and shift vectors a trailing unit axis. After the region one host line splits the 4096
  positions back into 64 × 64. So the program's result is that reshape of the normalised array of the flattened
  activations, the bias matrix, and the scale and shift vectors; the arguments end as they began.
-/
import proofs.«150646_j8443905704449_1_alg».proof.Proof.Gen.KernelIdeal.Frame
import proofs.«150646_j8443905704449_1_alg».proof.Proof.KernelArray
import Idealize.ShloMosaic.Lib.StableHlo.Run

set_option maxRecDepth 16384

noncomputable section

open Idealize.ShloMosaic Idealize.ShloMosaic.TcCoe Idealize.SL.Sem
open Idealize.ShloMosaic.Pipeline (Dat)

namespace Cert.KernelIdeal.LnValue

open Cert.KernelIdeal Cert.KernelIdeal.Gen Idealize.ShloMosaic.ValueIdx Cert.LnSpec Cert.KernelIdeal.LnBlock

variable (m : (ℓ : Loc nD τ sig) → Buf (Elt Ideal) ℓ) (ρ : Dev nD → PrngReg)

/-- The bias matrix `[16, 768]` the host lines before the region compute. -/
def biasK (c : Dev nD) : FVec Ideal S16x768 .f32 := V m c main_v21

/-- The activations as the region finds them: the argument with its two spatial axes flattened. -/
theorem xarr_eq (c : Dev nD) :
    xarr m c = shapeCast S16x768x4096 (m ((c.tc : Thread nD τ).loc main_arg0)) shapeCasts_S16x768x64x64_S16x768x4096 := by
  show StableHlo.after hostOps0 (fun b => m (c, b)) (Proc.devRef .tc main_v22) = _
  after_results
  rfl

/-- The scale as the region finds it: the argument vector as a column. -/
theorem garr_eq (c : Dev nD) :
    garr m c = shapeCast S768x1 (m ((c.tc : Thread nD τ).loc main_arg10)) shapeCasts_S768_S768x1 := by
  show StableHlo.after hostOps0 (fun b => m (c, b)) (Proc.devRef .tc main_v24) = _
  after_results
  rfl

/-- The shift as the region finds it: the argument vector as a column. -/
theorem barr_eq (c : Dev nD) :
    barr m c = shapeCast S768x1 (m ((c.tc : Thread nD τ).loc main_arg11)) shapeCasts_S768_S768x1 := by
  show StableHlo.after hostOps0 (fun b => m (c, b)) (Proc.devRef .tc main_v25) = _
  after_results
  rfl

set_option maxHeartbeats 1000000 in
/-- The bias as the region finds it: the bias matrix with a trailing unit axis. -/
theorem parr_eq (c : Dev nD) :
    parr m c = shapeCast S16x768x1 (biasK m c) shapeCasts_S16x768_S16x768x1 := by
  show StableHlo.after hostOps0 (fun b => m (c, b)) (Proc.devRef .tc main_v23)
    = shapeCast S16x768x1 (StableHlo.after hostOps0 (fun b => m (c, b)) (Proc.devRef .tc main_v21)) shapeCasts_S16x768_S16x768x1
  after_results_simp
  rfl

/-- The program's result as one term. -/
def result (c : Dev nD) : Buf (Elt Ideal) ((c.tc : Thread nD τ).loc main_v27) :=
  shapeCast S16x768x64x64
    (lnArr (shapeCast S16x768x4096 (m ((c.tc : Thread nD τ).loc main_arg0)) shapeCasts_S16x768x64x64_S16x768x4096)
      (biasK m c) (m ((c.tc : Thread nD τ).loc main_arg10)) (m ((c.tc : Thread nD τ).loc main_arg11)))
    shapeCasts_S16x768x4096_S16x768x64x64

/-- The region's array after the run, over the arguments. -/
theorem region_arr (c : Dev nD) :
    (dats m 0 c).arrAt 4 cfg0.N
      = lnArr (shapeCast S16x768x4096 (m ((c.tc : Thread nD τ).loc main_arg0)) shapeCasts_S16x768x64x64_S16x768x4096)
          (biasK m c) (m ((c.tc : Thread nD τ).loc main_arg10)) (m ((c.tc : Thread nD τ).loc main_arg11)) := by
  rw [final m c, xarr_eq m c, parr_eq m c, garr_eq m c, barr_eq m c]
  exact lnArrCols_cast _ _ _ _ _ _

/-- The host line after the region reshapes the region's array. -/
theorem tail_eq (c : Dev nD) :
    Pipeline.afterTail₀ cfgs (dats m) 0 (V0 m) [hostOps1] c main_v27
      = shapeCast S16x768x64x64 ((dats m 0 c).arrAt 4 cfg0.N) shapeCasts_S16x768x4096_S16x768x64x64 := by
  unfold Pipeline.afterTail₀
  show StableHlo.after hostOps1 _ (Proc.devRef .tc main_v27) = _
  after_results
  exact congrArg (fun A => shapeCast S16x768x64x64 A shapeCasts_S16x768x4096_S16x768x64x64)
    (Pipeline.withArrays_arr spec0 launch0.win.arr_inj c _ _ 4)

/-- THE RUN: every weakly fair execution terminates with the result buffer at `result` and the arguments unchanged. -/
theorem run : θ_run defs (onTc (τ := τ) (main (F := Ideal))) ⟨m, fun _ => 0, ρ⟩ (fun r => ∀ c : Dev nD,
      r.2.mem ((c.tc : Thread nD τ).loc main_v27) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨
      (((h c).2 main_v27 (Pipeline.mem_restRefs_of main_v27 (by decide) (by decide))).trans
        ((tail_eq m c).trans (congrArg (fun A => shapeCast S16x768x64x64 A shapeCasts_S16x768x4096_S16x768x64x64) (region_arr m c)))),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c)),
      (((h c).2 main_arg10 (Pipeline.mem_restRefs_of main_arg10 (by decide) (by decide))).trans (W_main_arg10 m (dats m) c)),
      (((h c).2 main_arg11 (Pipeline.mem_restRefs_of main_arg11 (by decide) (by decide))).trans (W_main_arg11 m (dats m) c))⟩) (run_main m ρ)

end Cert.KernelIdeal.LnValue

end
-- ==== Proof.RefArray.lean ====
/-
  The reference program, read as one value.

  The reference flattens the activations' two spatial axes, swaps channels and positions (`[16, 4096, 768]`), adds the
  bias matrix along the channel axis, takes the mean and the mean squared deviation over the LAST axis (the channels),
  normalises, applies scale and shift along the channels, swaps the axes back and splits the positions into 64 × 64.
  Read at batch `n`, channel `c`, position `s` of the array before the last reshape, the two swaps cancel and every
  broadcast is a re-indexing: the value is the column `k ↦ x[n, k, s] + p[n, k]` normalised at `c`. The host's
  sums start from the word of zero, which adds nothing.
-/
import proofs.«150646_j8443905704449_1_alg».proof.Proof.Gen.ReferenceIdeal.Read
import proofs.«150646_j8443905704449_1_alg».proof.Proof.LnSpec
import Idealize.ShloMosaic.PureOps.Ideal.Laws

open scoped BigOperators

noncomputable section

namespace Cert.ReferenceIdeal.LnRef

open Cert.ReferenceIdeal Cert.ReferenceIdeal.Gen Cert.ReferenceIdeal.Read Idealize.ShloMosaic Idealize.ShloMosaic.ValueIdx Cert.LnSpec

variable (x0 : (⟨S16x768x64x64, .f32⟩ : BufTy).Contents (Elt Ideal)) (x1 : (⟨S16x1024, .f32⟩ : BufTy).Contents (Elt Ideal)) (x2 : (⟨S768x1024, .f32⟩ : BufTy).Contents (Elt Ideal)) (x3 : (⟨S768, .f32⟩ : BufTy).Contents (Elt Ideal))
  (x4 : (⟨S2304x768, .f32⟩ : BufTy).Contents (Elt Ideal)) (x5 : (⟨S2304, .f32⟩ : BufTy).Contents (Elt Ideal)) (x6 : (⟨S768x768, .f32⟩ : BufTy).Contents (Elt Ideal)) (x7 : (⟨S768, .f32⟩ : BufTy).Contents (Elt Ideal))
  (x8 : (⟨S768x768, .f32⟩ : BufTy).Contents (Elt Ideal)) (x9 x10 x11 : (⟨S768, .f32⟩ : BufTy).Contents (Elt Ideal))

/-- The column of batch `n` at position `s`: the flattened activations plus the bias matrix, channel by channel. -/
def col (n : Fin 16) (s : Fin 4096) : Fin 768 → EReal :=
  fun k => val_main_v0 (F := Ideal) x0 (ix3 n k s) + val_main_v23 (F := Ideal) x1 x2 x3 x4 x5 x6 x7 x8 x9 (ix2 n k)

/-- The shifted activations, channels last, at `(n, s, k)`: the column's entry `k`. -/
theorem shifted_at (n : Fin 16) (s : Fin 4096) (k : Fin 768) :
    val_main_v26 (F := Ideal) x0 x1 x2 x3 x4 x5 x6 x7 x8 x9 (ix3 n s k) = col x0 x1 x2 x3 x4 x5 x6 x7 x8 x9 n s k := by
  have e1 : idx_main_v1 (ix3 n s k) = ix3 n k s := funext fun a => match a with | ⟨0, _⟩ => rfl | ⟨1, _⟩ => rfl | ⟨2, _⟩ => rfl
  have e2 : idx_main_v24 (idx_main_v25 (ix3 n s k)) = ix2 n k := funext fun a => match a with | ⟨0, _⟩ => rfl | ⟨1, _⟩ => rfl
  rw [val_main_v26_apply, val_main_v1_apply, val_main_v25_apply, val_main_v24_apply, e1, e2]
  rfl

/-- The mean over the channels at `(n, s)`, kept as a unit axis: the column's mean. -/
theorem mean_at (n : Fin 16) (s : Fin 4096) (u : Fin 1) :
    val_main_v30 (F := Ideal) x0 x1 x2 x3 x4 x5 x6 x7 x8 x9 (ix3 n s u) = mean768 (col x0 x1 x2 x3 x4 x5 x6 x7 x8 x9 n s) := by
  rw [val_main_v30_apply, val_main_v28_apply, val_main_v27_apply, val_main_v29_apply, val_main_cst_0_apply,
    val_main_cst_apply]
  simp only [Ideal.hostDivf_def, Ideal.ofBits_def, Ideal.ofBits_zero_f32, zero_add]
  refine congrArg (fun t => Ideal.div t (Ideal.ofBits .f32 0x44400000#32)) (Finset.sum_congr rfl fun k _ => ?_)
  have e : idx_main_v27 (idx_main_v28 (ix3 n s u)) k = ix3 n s k := funext fun a => match a with | ⟨0, _⟩ => rfl | ⟨1, _⟩ => rfl | ⟨2, _⟩ => rfl
  rw [e]
  exact shifted_at x0 x1 x2 x3 x4 x5 x6 x7 x8 x9 n s k

/-- The deviation from the mean at `(n, s, k)`, as the variance reads it. -/
theorem dev_at (n : Fin 16) (s : Fin 4096) (k : Fin 768) :
    val_main_v32 (F := Ideal) x0 x1 x2 x3 x4 x5 x6 x7 x8 x9 (ix3 n s k) = col x0 x1 x2 x3 x4 x5 x6 x7 x8 x9 n s k - mean768 (col x0 x1 x2 x3 x4 x5 x6 x7 x8 x9 n s) := by
  have e : idx_main_v31 (ix3 n s k) = ix3 n s (0 : Fin 1) := funext fun a => match a with | ⟨0, _⟩ => rfl | ⟨1, _⟩ => rfl | ⟨2, _⟩ => rfl
  rw [val_main_v32_apply, val_main_v31_apply, e, shifted_at, mean_at]
  rfl

/-- The same deviation, as the normalised value reads it (the program broadcasts the mean a second time). -/
theorem dev_at' (n : Fin 16) (s : Fin 4096) (k : Fin 768) :
    val_main_v39 (F := Ideal) x0 x1 x2 x3 x4 x5 x6 x7 x8 x9 (ix3 n s k) = col x0 x1 x2 x3 x4 x5 x6 x7 x8 x9 n s k - mean768 (col x0 x1 x2 x3 x4 x5 x6 x7 x8 x9 n s) := by
  have e : idx_main_v38 (ix3 n s k) = ix3 n s (0 : Fin 1) := funext fun a => match a with | ⟨0, _⟩ => rfl | ⟨1, _⟩ => rfl | ⟨2, _⟩ => rfl
  rw [val_main_v39_apply, val_main_v38_apply, e, shifted_at, mean_at]
  rfl

/-- The mean squared deviation over the channels at `(n, s)`. -/
theorem var_at (n : Fin 16) (s : Fin 4096) (u : Fin 1) :
    val_main_v37 (F := Ideal) x0 x1 x2 x3 x4 x5 x6 x7 x8 x9 (ix3 n s u)
      = mean768 (fun k => (col x0 x1 x2 x3 x4 x5 x6 x7 x8 x9 n s k - mean768 (col x0 x1 x2 x3 x4 x5 x6 x7 x8 x9 n s)) * (col x0 x1 x2 x3 x4 x5 x6 x7 x8 x9 n s k - mean768 (col x0 x1 x2 x3 x4 x5 x6 x7 x8 x9 n s))) := by
  rw [val_main_v37_apply, val_main_v35_apply, val_main_v34_apply, val_main_v36_apply, val_main_cst_2_apply,
    val_main_cst_1_apply]
  simp only [Ideal.hostDivf_def, Ideal.ofBits_def, Ideal.ofBits_zero_f32, zero_add]
  refine congrArg (fun t => Ideal.div t (Ideal.ofBits .f32 0x44400000#32)) (Finset.sum_congr rfl fun k _ => ?_)
  have e : idx_main_v34 (idx_main_v35 (ix3 n s u)) k = ix3 n s k := funext fun a => match a with | ⟨0, _⟩ => rfl | ⟨1, _⟩ => rfl | ⟨2, _⟩ => rfl
  rw [e, val_main_v33_apply, dev_at]
  rfl

/-- The array before the last reshape, at `(n, c, s)`: the column normalised at channel `c`. -/
theorem normalised_at (n : Fin 16) (c : Fin 768) (s : Fin 4096) :
    val_main_v51 (F := Ideal) x0 x1 x2 x3 x4 x5 x6 x7 x8 x9 x10 x11 (ix3 n c s)
      = lnAt (val_main_v0 (F := Ideal) x0) (val_main_v23 (F := Ideal) x1 x2 x3 x4 x5 x6 x7 x8 x9) x10 x11 n c s := by
  have e51 : idx_main_v51 (ix3 n c s) = ix3 n s c := funext fun a => match a with | ⟨0, _⟩ => rfl | ⟨1, _⟩ => rfl | ⟨2, _⟩ => rfl
  have e43 : idx_main_v43 (ix3 n s c) = ix3 n s (0 : Fin 1) := funext fun a => match a with | ⟨0, _⟩ => rfl | ⟨1, _⟩ => rfl | ⟨2, _⟩ => rfl
  have e46 : idx_main_v45 (idx_main_v46 (ix3 n s c)) = ix1 c := funext fun a => match a with | ⟨0, _⟩ => rfl
  have e49 : idx_main_v48 (idx_main_v49 (ix3 n s c)) = ix1 c := funext fun a => match a with | ⟨0, _⟩ => rfl
  rw [val_main_v51_apply, e51, val_main_v50_apply, val_main_v47_apply, val_main_v44_apply, val_main_v43_apply, e43,
    val_main_v42_apply, val_main_v41_apply, val_main_v40_apply, val_main_cst_3_apply, val_main_v46_apply,
    val_main_v45_apply, e46, val_main_v49_apply, val_main_v48_apply, e49, dev_at', var_at]
  rfl

/-- The array before the last reshape is the normalised array of the flattened activations and the bias matrix. -/
theorem normalised :
    val_main_v51 (F := Ideal) x0 x1 x2 x3 x4 x5 x6 x7 x8 x9 x10 x11
      = lnArr (val_main_v0 (F := Ideal) x0) (val_main_v23 (F := Ideal) x1 x2 x3 x4 x5 x6 x7 x8 x9) x10 x11 := by
  funext i
  obtain ⟨n, c, s, rfl⟩ : ∃ (n : Fin 16) (c : Fin 768) (s : Fin 4096), i = ix3 n c s := ⟨i 0, i 1, i 2, eq_ix3 i⟩
  exact normalised_at x0 x1 x2 x3 x4 x5 x6 x7 x8 x9 x10 x11 n c s

/-- The reference's result: the normalised array with its positions split into 64 × 64. -/
theorem result_eq :
    val_main_v52 (F := Ideal) x0 x1 x2 x3 x4 x5 x6 x7 x8 x9 x10 x11
      = shapeCast S16x768x64x64
          (lnArr (shapeCast S16x768x4096 x0 shapeCasts_S16x768x64x64_S16x768x4096)
            (val_main_v23 (F := Ideal) x1 x2 x3 x4 x5 x6 x7 x8 x9) x10 x11)
          shapeCasts_S16x768x4096_S16x768x64x64 := by
  unfold val_main_v52
  rw [normalised]
  rfl

end Cert.ReferenceIdeal.LnRef

end
-- ==== Proof.lean ====
/-
  The certificate of a fused residual-add + layer normalisation kernel against its jnp reference.

  Both programs first compute, with the same host operations, a bias matrix `p : [16, 768]` from the conditioning
  vector (four dense layers), and then, for every batch `n` and every one of the 64 × 64 spatial positions `s`,
  normalise the column `k ↦ x[n, k, s] + p[n, k]` of 768 channel values: subtract its mean, multiply by the reciprocal
  square root of its mean squared deviation plus `ε`, scale by `γ` and shift by `β` along the channels.

  The kernel keeps the channels on the second axis, `[16, 768, 4096]`, and works on blocks of all channels by 1024
  positions, summing over the block's first axis; the reference moves the channels last, `[16, 4096, 768]`, sums over
  the last axis, and moves them back. On the extended reals the two are the same function entry by entry: a sum over
  the channels is the same finite sum whichever axis carries them, the divisions and the reciprocal square root are
  the same operations on both sides, and both carry the same words for 768 and for `ε`. No law of arithmetic beyond
  that is used, so the precondition (finite inputs) is never opened.

  Proof/LnSpec.lean states the function; Proof/KernelEntry.lean, KernelArray.lean and KernelRun.lean show the kernel
  program ends at it (one block at an entry, the blocks tiling the array, the host lines around the region);
  Proof/RefArray.lean shows the reference's term is it. The kernel programs' frames and the reference's run are the
  generated modules'.
-/
import proofs.«150646_j8443905704449_1_alg».proof.Defs
import proofs.«150646_j8443905704449_1_alg».proof.Proof.Gen.Kernel
import proofs.«150646_j8443905704449_1_alg».proof.Proof.Gen.Kernel.Skeleton
import proofs.«150646_j8443905704449_1_alg».proof.Proof.Gen.Kernel.Launch
import proofs.«150646_j8443905704449_1_alg».proof.Proof.Gen.Kernel.Points
import proofs.«150646_j8443905704449_1_alg».proof.Proof.Gen.Kernel.Frame
import proofs.«150646_j8443905704449_1_alg».proof.Proof.Gen.KernelIdeal
import proofs.«150646_j8443905704449_1_alg».proof.Proof.Gen.KernelIdeal.Skeleton
import proofs.«150646_j8443905704449_1_alg».proof.Proof.Gen.KernelIdeal.Launch
import proofs.«150646_j8443905704449_1_alg».proof.Proof.Gen.KernelIdeal.Points
import proofs.«150646_j8443905704449_1_alg».proof.Proof.Gen.KernelIdeal.Frame
import proofs.«150646_j8443905704449_1_alg».proof.Proof.Gen.ReferenceIdeal
import proofs.«150646_j8443905704449_1_alg».proof.Proof.Gen.Pre_finite_inputs
import proofs.«150646_j8443905704449_1_alg».proof.Proof.Gen.ReferenceIdeal.Run
import proofs.«150646_j8443905704449_1_alg».proof.Proof.Gen.ReferenceIdeal.Read
import proofs.«150646_j8443905704449_1_alg».proof.Proof.KernelRun
import proofs.«150646_j8443905704449_1_alg».proof.Proof.RefArray
import Idealize.ShloMosaic.Adequacy
import Idealize.ShloMosaic.Init

set_option maxRecDepth 16384

noncomputable section

namespace Cert.Proof

open Idealize.ShloMosaic Idealize.ShloMosaic.TcCoe Idealize.SL.Sem

set_option maxHeartbeats 1000000 in
/-- The bias matrix is computed by the same host operations in both programs: the kernel program's buffer, as the
    region finds it, is the reference's stage of the same arguments. -/
theorem bias_eq (m : (ℓ : Loc Cert.KernelIdeal.nD Cert.KernelIdeal.τ Cert.KernelIdeal.sig) → Buf (Elt Ideal) ℓ)
    (c : Dev Cert.KernelIdeal.nD) :
    Cert.KernelIdeal.LnValue.biasK m c
      = Cert.ReferenceIdeal.Read.val_main_v23 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) := by
  unfold Cert.KernelIdeal.LnValue.biasK
  show StableHlo.after Cert.KernelIdeal.Gen.hostOps0 (fun b => m (c, b)) (Proc.devRef .tc Cert.KernelIdeal.main_v21) = _
  after_results_simp
  rfl

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both programs end with the normalised array, split into 64 × 64 positions, of the same arguments. -/
theorem algebraic : Cert.algebraic_KernelIdeal_ReferenceIdeal := by
  intro m ρ m' ρ' _ hagree
  refine ⟨fun c => Cert.KernelIdeal.LnValue.result m c, Cert.KernelIdeal.LnValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11⟩ := hagree c
  rw [Cert.ReferenceIdeal.Read.val_main_v52_eq, Cert.ReferenceIdeal.LnRef.result_eq,
    h0, h1, h2, h3, h4, h5, h6, h7, h8, h9, h10, h11]
  show _ = Cert.KernelIdeal.LnValue.result m c
  unfold Cert.KernelIdeal.LnValue.result
  rw [bias_eq m c]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
